-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) (main_arg1 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S2048x64 : Shape := ⟨2, ![2048, 64]⟩
abbrev S_ : Shape := ⟨0, ![]⟩
abbrev S64 : Shape := ⟨1, ![64]⟩
abbrev S1x64 : Shape := ⟨2, ![1, 64]⟩
abbrev S2048x2048 : Shape := ⟨2, ![2048, 2048]⟩
abbrev S128x64 : Shape := ⟨2, ![128, 64]⟩
abbrev S128x128 : Shape := ⟨2, ![128, 128]⟩
abbrev S128x1x64 : Shape := ⟨3, ![128, 1, 64]⟩
abbrev S1x128x64 : Shape := ⟨3, ![1, 128, 64]⟩
abbrev S128x128x64 : Shape := ⟨3, ![128, 128, 64]⟩

abbrev nBuf : Space → Nat
  | .hbm => 13
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S_, .f32⟩
  | .hbm, ⟨3, _⟩ => ⟨S64, .f32⟩
  | .hbm, ⟨4, _⟩ => ⟨S1x64, .f32⟩
  | .hbm, ⟨5, _⟩ => ⟨S_, .f32⟩
  | .hbm, ⟨6, _⟩ => ⟨S1x64, .f32⟩
  | .hbm, ⟨7, _⟩ => ⟨S1x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S2048x2048, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x128, .f32⟩
  | .local _ .vmem, ⟨5, _⟩ => ⟨S128x128, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S2048x64_S64_d0 : S2048x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S2048x64_0_1 : S1x64.BroadcastsInDim S2048x64 (![0, 1] : Fin 2 → Fin S2048x64.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  reduces_S128x128x64_S128x128 : S128x128x64.Reduces [2] S128x128
  inb_S128x128_S128x128_0_0 : ∀ a, (![0, 0] : Fin 2 → Nat) a + S128x128.size a ≤ S128x128.size a
  h_S128x128 : 0 < S128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S2048x64.size a
  hwx0_0 : ∀ i : grid0.Coords, EltTy.bits .f32 = 32 ∨ (Rect.block (s := S2048x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S2048x64.size a
  hwx0_1 : ∀ i : grid0.Coords, EltTy.bits .f32 = 32 ∨ (Rect.block (s := S2048x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S2048x2048.size a
  hwx0_2 : ∀ i : grid0.Coords, EltTy.bits .f32 = 32 ∨ (Rect.block (s := S2048x2048) S128x128.size (cc0_transform_2 i) (hinb0_2 i)).WholeWords (EltTy.packing .f32)

variable [Facts₀]

abbrev win0_0 : Pipeline.Window sig grid0 :=
  Pipeline.Window.ofSpec (Memref.whole main_v5) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S_ : Shape := ⟨0, ![]⟩
abbrev S64 : Shape := ⟨1, ![64]⟩
abbrev S1x64 : Shape := ⟨2, ![1, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S_, .f32⟩
  | .hbm, ⟨3, _⟩ => ⟨S64, .f32⟩
  | .hbm, ⟨4, _⟩ => ⟨S1x64, .f32⟩
  | .hbm, ⟨5, _⟩ => ⟨S_, .f32⟩
  | .hbm, ⟨6, _⟩ => ⟨S1x64, .f32⟩
  | .hbm, ⟨7, _⟩ => ⟨S1x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S2048x1x64, .f32⟩
  | .hbm, ⟨13, _⟩ => ⟨S1x2048x64, .f32⟩
  | .hbm, ⟨14, _⟩ => ⟨S2048x2048x64, .f32⟩
  | .hbm, ⟨15, _⟩ => ⟨S2048x2048x64, .f32⟩
  | .hbm, ⟨16, _⟩ => ⟨S2048x2048x64, .f32⟩
  | .hbm, ⟨17, _⟩ => ⟨S2048x2048x64, .f32⟩
  | .hbm, ⟨18, _⟩ => ⟨S_, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S2048x64_S64_d0 : S2048x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S2048x64_0_1 : S1x64.BroadcastsInDim S2048x64 (![0, 1] : Fin 2 → Fin S2048x64.rank)
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  reducesTo_S2048x2048x64_S2048x2048_d2 : S2048x2048x64.ReducesTo [2] S2048x2048
  bcast_S_S2048x2048 : S_.BroadcastsInDim S2048x2048 (![] : Fin 0 → Fin S2048x2048.rank)

variable [Facts₀]

class Facts : Prop extends Facts₀ where

variable [Facts]
-- ==== Proof.PairDist.lean ====
/-
  The pairwise L1 distance between two families of 2048 points of ℝ⁶⁴ (read on the extended reals): the array whose
  entry at (n, m) is the sum over the 64 coordinates d of |A(n, d) − B(m, d)|, clamped below at zero (the clamp changes
  nothing, a sum of absolute values being nonnegative, and is kept because both programs apply it).

  Two readings of that one function are proved here, neither of them needing the entries to be finite (a finite sum on
  the extended reals does not depend on the order of its terms, and no other law is used):

  * on ONE 128 × 128 tile: two blocks of 128 rows, one of each family, each re-laid as a three-axis array (a unit axis
    inserted, then repeated 128 times), subtracted entry by entry, made absolute, summed along the last axis and clamped,
    give at (p, q) the sum over d of |x0(p, d) − x1(q, d)| clamped at zero (`tile_apply`);
  * the sum along the last axis of a three-axis array at (p, q) is the sum over d of its entries at (p, q, d)
    (`lift_ix2`, the index the library's one-axis sum reads).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.PairDist

open Idealize.ShloMosaic Idealize.ShloMosaic.ValueIdx

/-- The absolute value on the extended reals: the larger of a number and its opposite (so |±∞| = +∞). -/
def eabs (a : EReal) : EReal := max a (-a)

/-- The L1 distance array of two families of rows: at (n, m) the sum over d of |A(n, d) − B(m, d)|, clamped at zero. -/
def l1dist (A B : (⟨2, ![2048, 64]⟩ : Shape).Idx → EReal) : (⟨2, ![2048, 2048]⟩ : Shape).Idx → EReal :=
  fun j => max (∑ d : Fin 64, eabs (A (ix2 (j 0) d) - B (ix2 (j 1) d))) (Ideal.ofBits .f32 0x00000000#32)

/-- The index of a [128, 128, 64] array that lies over (p, q) of its sum along the last axis, at coordinate d, is (p, q, d). -/
theorem lift_ix2 (hr : (⟨3, ![128, 128, 64]⟩ : Shape).Reduces [2] ⟨2, ![128, 128]⟩) (p q : Fin 128) (d : Fin 64) :
    hr.lift (ix2 p q) d = ix3 p q d :=
  funext fun a => Fin.ext (by match a with | ⟨0, _⟩ => rfl | ⟨1, _⟩ => rfl | ⟨2, _⟩ => rfl)

/-- A block of 128 rows, given a unit middle axis and repeated along it, reads at (p, q, d) the block's entry (p, d). -/
theorem rows_apply (x : FVec Ideal ⟨2, ![128, 64]⟩ .f32)
    (hc : (⟨2, ![128, 64]⟩ : Shape).ShapeCasts ⟨3, ![128, 1, 64]⟩)
    (hb : (⟨3, ![128, 1, 64]⟩ : Shape).Broadcasts ⟨3, ![128, 128, 64]⟩) (p q : Fin 128) (d : Fin 64) :
    broadcastTo ⟨3, ![128, 128, 64]⟩ (shapeCast ⟨3, ![128, 1, 64]⟩ x hc) hb (ix3 p q d) = x (ix2 p d) := by
  refine (broadcastTo_apply _ hb (ix3 p q d) (ix3 p (0 : Fin 1) d) fun a => ?_).trans ?_
  · match a with
    | ⟨0, _⟩ => rfl
    | ⟨1, _⟩ => rfl
    | ⟨2, _⟩ => rfl
  · refine shapeCast_apply x hc _ _ ?_
    rw [Shape.rowMajor_val_three, Shape.rowMajor_val_two]
    show p.val * 64 + d.val = (p.val * 1 + 0) * 64 + d.val
    omega

/-- A block of 128 rows, given a unit leading axis and repeated along it, reads at (p, q, d) the block's entry (q, d). -/
theorem cols_apply (x : FVec Ideal ⟨2, ![128, 64]⟩ .f32)
    (hc : (⟨2, ![128, 64]⟩ : Shape).ShapeCasts ⟨3, ![1, 128, 64]⟩)
    (hb : (⟨3, ![1, 128, 64]⟩ : Shape).Broadcasts ⟨3, ![128, 128, 64]⟩) (p q : Fin 128) (d : Fin 64) :
    broadcastTo ⟨3, ![128, 128, 64]⟩ (shapeCast ⟨3, ![1, 128, 64]⟩ x hc) hb (ix3 p q d) = x (ix2 q d) := by
  refine (broadcastTo_apply _ hb (ix3 p q d) (ix3 (0 : Fin 1) q d) fun a => ?_).trans ?_
  · match a with
    | ⟨0, _⟩ => rfl
    | ⟨1, _⟩ => rfl
    | ⟨2, _⟩ => rfl
  · exact ValueIdx.shapeCast_ab_1ab_apply x hc 0 q d

/-- ONE TILE: the two blocks re-laid, subtracted, made absolute, summed along the last axis and clamped at zero give at
    (p, q) the sum over d of |x0(p, d) − x1(q, d)|, clamped at zero. -/
theorem tile_apply
    (hc : (⟨2, ![128, 64]⟩ : Shape).ShapeCasts ⟨2, ![128, 64]⟩)
    (hcA : (⟨2, ![128, 64]⟩ : Shape).ShapeCasts ⟨3, ![128, 1, 64]⟩)
    (hcB : (⟨2, ![128, 64]⟩ : Shape).ShapeCasts ⟨3, ![1, 128, 64]⟩)
    (hbA : (⟨3, ![128, 1, 64]⟩ : Shape).Broadcasts ⟨3, ![128, 128, 64]⟩)
    (hbB : (⟨3, ![1, 128, 64]⟩ : Shape).Broadcasts ⟨3, ![128, 128, 64]⟩)
    (hr : (⟨3, ![128, 128, 64]⟩ : Shape).Reduces [2] ⟨2, ![128, 128]⟩)
    (hφ : FKind.Formats .f32) (hacc : (0x00000000#32 : BitVec 32) = FKind.add.neutral .f32 hφ)
    (x0 x1 : FVec Ideal ⟨2, ![128, 64]⟩ .f32) (p q : Fin 128) :
    maximumf (F := Ideal)
        (multiReduction (F := Ideal) .add [2] ⟨2, ![128, 128]⟩
          (absf (subf
            (broadcastTo ⟨3, ![128, 128, 64]⟩ (shapeCast ⟨3, ![128, 1, 64]⟩ (shapeCast ⟨2, ![128, 64]⟩ x0 hc) hcA) hbA)
            (broadcastTo ⟨3, ![128, 128, 64]⟩ (shapeCast ⟨3, ![1, 128, 64]⟩ (shapeCast ⟨2, ![128, 64]⟩ x1 hc) hcB) hbB)))
          0x00000000#32 hr hφ hacc)
        (broadcast ⟨2, ![128, 128]⟩ (Scalar.ofBits (F := Ideal) .f32 0x00000000#32)) (ix2 p q)
      = max (∑ d : Fin 64, eabs (x0 (ix2 p d) - x1 (ix2 q d))) (Ideal.ofBits .f32 0x00000000#32) := by
  rw [shapeCast_self x0 hc, shapeCast_self x1 hc]
  show max (multiReduction (F := Ideal) .add [2] ⟨2, ![128, 128]⟩ _ 0x00000000#32 hr hφ hacc (ix2 p q)) _ = _
  refine congrArg (max · _) ?_
  refine (Ideal.multiReduction_add_single _ 0x00000000#32 hr hφ hacc (ix2 p q)).trans ?_
  refine Finset.sum_congr rfl fun d _ => ?_
  rw [lift_ix2 hr p q d]
  show eabs (_ - _) = _
  rw [rows_apply x0 hcA hbA p q d, cols_apply x1 hcB hbB p q d]

end Cert.PairDist

end
-- ==== Proof.Tiles.lean ====
/-
  What the tiled kernel leaves in its [2048, 2048] result, at the ideal values: the pairwise L1 distance array
  (`Cert.PairDist.l1dist`) of the two arrays its input windows are cut from.

  The grid has 16 × 16 points; point t has coordinates (t / 16, t mod 16) =: (I, J). There the first window holds rows
  128·I … 128·I + 127 of the first array, the second window rows 128·J … 128·J + 127 of the second, and the body stores into
  the 128 × 128 output tile (I, J) the clamped sums of absolute differences of those rows (`PairDist.tile_apply`). Entry
  (p, q) of that tile is entry (128·I + p, 128·J + q) of the result and depends on row 128·I + p of the first array and row
  128·J + q of the second: exactly what `l1dist` reads there (`flushed_eq`). Every index (n, m) of the result lies in the tile
  (n / 128, m / 128), that is, under the point 16·(n / 128) + m / 128 (`cover`), so the whole result is `l1dist` (`final`).
-/
import proofs.«171597_j31739808318036_1_alg».proof.Proof.Gen.KernelIdeal.Value
import proofs.«171597_j31739808318036_1_alg».proof.Proof.PairDist

set_option maxRecDepth 16384

noncomputable section

namespace Cert.KernelIdeal.Tiles

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.PairDist

variable (m : (ℓ : Loc nD τ sig) → Buf (Elt Ideal) ℓ) (ρ : Dev nD → PrngReg)

theorem off_zero : (![0, 0] : Fin 2 → Nat) = fun _ => 0 := funext fun a => by fin_cases a <;> rfl

/-- The body's stored value at (p, q) of the tile: the clamped sum over d of |x0(p, d) − x1(q, d)|. -/
theorem pay_apply (x0 x1 : FVec Ideal S128x64 .f32) (p q : Fin 128) :
    k0_pay1 (F := Ideal) x0 x1 (ix2 p q)
      = max (∑ d : Fin 64, eabs (x0 (ix2 p d) - x1 (ix2 q d))) (Ideal.ofBits .f32 0x00000000#32) :=
  tile_apply shapeCasts_S128x64_S128x64 shapeCasts_S128x64_S128x1x64 shapeCasts_S128x64_S1x128x64
    broadcasts_S128x1x64_S128x128x64 broadcasts_S1x128x64_S128x128x64 reduces_S128x128x64_S128x128 (.inl rfl) rfl x0 x1 p q

/-- The same at any index y of the tile, its two coordinates read off y. -/
theorem pay_at (x0 x1 : FVec Ideal S128x64 .f32) (y : S128x128.Idx) :
    k0_pay1 (F := Ideal) x0 x1 y
      = max (∑ d : Fin 64, eabs (x0 (ix2 (y 0) d) - x1 (ix2 (y 1) d))) (Ideal.ofBits .f32 0x00000000#32) := by
  exact (congrArg (k0_pay1 (F := Ideal) x0 x1) (eq_ix2 y)).trans (pay_apply x0 x1 (y 0) (y 1))

/-- The printed index maps over the 256 points: point t sits at block row t / 16 of the first array, block row t mod 16
    of the second, and tile (t / 16, t mod 16) of the result; the input blocks span all 64 coordinates. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16 :=
  (by decide +kernel : ∀ t : Fin grid0.N, _)

/-- WHAT POINT t WRITES BACK is tile t of the distance array of the two arrays the windows are cut from. -/
theorem flushed_eq (c : Dev nD) (t : Fin cfg0.N) :
    (dats m 0 c).flushed 2 t
      = ((cfg0.win 2).blk t).view.read (Elt Ideal) (l1dist (V m c main_v5) (V m c main_v7)) := by
  rw [flushed2]
  unfold out0_2
  rw [View.canon_unit_zero off_zero]
  simp only [View.ld_unit_zero (S := S128x64) off_zero]
  obtain ⟨e00, e01, e10, e11, e20, e21⟩ := idx_facts t
  funext y
  show k0_pay1 (F := Ideal) (iblk m c 0 t) (iblk m c 1 t) y = l1dist (V m c main_v5) (V m c main_v7) (((cfg0.win 2).blk t).view.emb y)
  refine (pay_at (iblk m c 0 t) (iblk m c 1 t) y).trans ?_
  unfold l1dist
  refine congrArg (max · _) (Finset.sum_congr rfl fun d _ => ?_)
  have h0 : iblk m c 0 t (ix2 (y 0) d) = V m c main_v5 (ix2 ((((cfg0.win 2).blk t).view.emb y) 0) d) := by
    show V m c main_v5 (((cfg0.win 0).blk t).view.emb (ix2 (y 0) d)) = _
    refine congrArg (V m c main_v5) (funext fun a => Fin.ext ?_)
    match a with
    | ⟨0, _⟩ => show win0_0.index t (0 : Fin 2) * 128 + 1 * (y 0).val = win0_2.index t (0 : Fin 2) * 128 + 1 * (y 0).val; omega
    | ⟨1, _⟩ => show win0_0.index t (1 : Fin 2) * 64 + 1 * d.val = d.val; omega
  have h1 : iblk m c 1 t (ix2 (y 1) d) = V m c main_v7 (ix2 ((((cfg0.win 2).blk t).view.emb y) 1) d) := by
    show V m c main_v7 (((cfg0.win 1).blk t).view.emb (ix2 (y 1) d)) = _
    refine congrArg (V m c main_v7) (funext fun a => Fin.ext ?_)
    match a with
    | ⟨0, _⟩ => show win0_1.index t (0 : Fin 2) * 128 + 1 * (y 1).val = win0_2.index t (1 : Fin 2) * 128 + 1 * (y 1).val; omega
    | ⟨1, _⟩ => show win0_1.index t (1 : Fin 2) * 64 + 1 * d.val = d.val; omega
  rw [h0, h1]

/-- An index of the result is in point t's tile iff each coordinate is in the tile's range on its axis. -/
theorem mem_blk (t : Fin cfg0.N) (i : S2048x2048.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v8).slice (win0_2.rect t)).set ↔ _
  rw [View.set_slice_whole, Rect.mem_set_unit]
  exact Iff.rfl

/-- THE TILES COVER THE RESULT: (n, m) lies under the point 16·(n / 128) + m / 128. -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  have hN : cfg0.N = 256 := N_0
  let t : Fin cfg0.N := ⟨(i 0).val / 128 * 16 + (i 1).val / 128, by rw [hN]; omega⟩
  obtain ⟨-, -, -, -, e20, e21⟩ := idx_facts t
  have ht : t.val = (i 0).val / 128 * 16 + (i 1).val / 128 := rfl
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- THE RESULT after the run is the distance array of the two arrays the windows are cut from. -/
theorem final (c : Dev nD) : (dats m 0 c).arrAt 2 cfg0.N = l1dist (V m c main_v5) (V m c main_v7) :=
  (dats m 0 c).arrAt_eq_of_cover 2 (l1dist (V m c main_v5) (V m c main_v7)) (fun t _ => flushed_eq m c t) cover

end Cert.KernelIdeal.Tiles

end
-- ==== Proof.Centred.lean ====
/-
  The kernel's run, read: its result is the pairwise L1 distance array of the two CENTRED inputs.

  Before the tiled region the program computes, from the first input x, the column means μ(d) = (0 + Σ_n x(n, d)) / 2048
  and subtracts them from both inputs: a(n, d) = x(n, d) − μ(d) and b(m, d) = y(m, d) − μ(d). These two arrays are what the
  region's input windows are cut from, so by `Tiles.final` the result is `l1dist a b`. The two centring terms are kept
  whole (`centredFst`, `centredSnd`): the comparison with the reference needs only that both programs form them by the
  same operations, never what they evaluate to.
-/
import proofs.«171597_j31739808318036_1_alg».proof.Proof.Tiles
import Idealize.ShloMosaic.Lib.StableHlo.Run

noncomputable section

namespace Cert.KernelIdeal.Centred

open Cert.KernelIdeal Cert.KernelIdeal.Gen Cert.KernelIdeal.Value Idealize.ShloMosaic Idealize.ShloMosaic.TcCoe Idealize.SL.Sem
open Idealize.ShloMosaic.StableHlo
open Cert.PairDist

/-- The column means of x, one row of 64 numbers: (0 + Σ_n x(n, d)) / 2048. -/
def colMeans (x : FVec Ideal S2048x64 .f32) : FVec Ideal S1x64 .f32 :=
  Host.divf (F := Ideal)
    (broadcastInDim S1x64 ![1] bcast_S64_S1x64_1
      (Host.reduceAdd (F := Ideal) x (constant (F := Ideal) S_ .f32 0x00000000#32) reducesTo_S2048x64_S64_d0 h_S_))
    (broadcastInDim S1x64 ![] bcast_S_S1x64 (constant (F := Ideal) S_ .f32 0x45000000#32))

/-- The first input minus its column means. -/
def centredFst (x : FVec Ideal S2048x64 .f32) : FVec Ideal S2048x64 .f32 :=
  subf x (broadcastInDim S2048x64 ![0, 1] bcast_S1x64_S2048x64_0_1 (colMeans x))

/-- The second input minus the FIRST input's column means. -/
def centredSnd (x y : FVec Ideal S2048x64 .f32) : FVec Ideal S2048x64 .f32 :=
  subf y (broadcastInDim S2048x64 ![0, 1] bcast_S1x64_S2048x64_0_1 (colMeans x))

variable (m : (ℓ : Loc nD τ sig) → Buf (Elt Ideal) ℓ) (ρ : Dev nD → PrngReg)

/-- The array the first window is cut from is the centred first input. -/
theorem V_fst (c : Dev nD) :
    (V m c main_v5 : S2048x64.Idx → EReal) = centredFst (m ((c : Thread nD τ).loc main_arg0)) := by
  dsimp only [Gen.V, Gen.hostOps0]
  after_results
  rfl

/-- The array the second window is cut from is the second input centred by the first's column means. -/
theorem V_snd (c : Dev nD) :
    (V m c main_v7 : S2048x64.Idx → EReal)
      = centredSnd (m ((c : Thread nD τ).loc main_arg0)) (m ((c : Thread nD τ).loc main_arg1)) := by
  dsimp only [Gen.V, Gen.hostOps0]
  after_results
  rfl

/-- THE KERNEL'S RUN: every execution ends with the result at the distance array of the centred inputs, the inputs unchanged. -/
theorem run : θ_run defs (onTc (τ := τ) (main (F := Ideal))) ⟨m, fun _ => 0, ρ⟩ fun r => ∀ c : Dev nD,
      r.2.mem ((c : Thread nD τ).loc main_v8)
        = l1dist (centredFst (m ((c : Thread nD τ).loc main_arg0)))
            (centredSnd (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun r h c => ⟨(h c).1.trans ((Tiles.final m c).trans (by rw [V_fst, V_snd])), (h c).2⟩)
    (Value.run_blocks m ρ)

end Cert.KernelIdeal.Centred

end
-- ==== Proof.RefDist.lean ====
/-
  The reference computes the pairwise L1 distance array of its two centred inputs.

  Its last stage is max(s, 0) with s(n, m) = 0 + Σ_d |u(n, m, d) − v(n, m, d)|, where u repeats the centred first input
  along a new middle axis, u(n, m, d) = a(n, d), and v repeats the centred second input along a new leading axis,
  v(n, m, d) = b(m, d). The initial value of the sum is the zero word, which denotes the number 0, so
  s(n, m) = Σ_d |a(n, d) − b(m, d)|: the reference's result is `Cert.PairDist.l1dist a b`. The centred inputs a and b
  (each input minus the column means of the first) are left as the stages that compute them: nothing here looks inside.
-/
import proofs.«171597_j31739808318036_1_alg».proof.Proof.Gen.ReferenceIdeal.Read
import proofs.«171597_j31739808318036_1_alg».proof.Proof.PairDist

noncomputable section

namespace Cert.ReferenceIdeal.RefValue

open Cert.ReferenceIdeal Cert.ReferenceIdeal.Gen Cert.ReferenceIdeal.Read Idealize.ShloMosaic
open Idealize.ShloMosaic.ValueIdx
open Cert.PairDist

/-- Through the two repeats, entry (n, m, d) of the first three-axis array is entry (n, d) of the centred first input. -/
theorem idx_rows (i : S2048x2048.Idx) (k : Fin 64) :
    idx_main_v8 (idx_main_v10 (idx_main_v14 i k)) = ix2 (i 0) k :=
  funext fun a => Fin.ext (by match a with | ⟨0, _⟩ => rfl | ⟨1, _⟩ => rfl)

/-- Through the two repeats, entry (n, m, d) of the second three-axis array is entry (m, d) of the centred second input. -/
theorem idx_cols (i : S2048x2048.Idx) (k : Fin 64) :
    idx_main_v9 (idx_main_v11 (idx_main_v14 i k)) = ix2 (i 1) k :=
  funext fun a => Fin.ext (by match a with | ⟨0, _⟩ => rfl | ⟨1, _⟩ => rfl)

/-- THE REFERENCE'S RESULT is the distance array of its two centred inputs. -/
theorem result_eq (x0 x1 : (⟨S2048x64, .f32⟩ : BufTy).Contents (Elt Ideal)) :
    val_main_v16 (F := Ideal) x0 x1 = l1dist (val_main_v5 (F := Ideal) x0) (val_main_v7 (F := Ideal) x0 x1) := by
  funext i
  rw [val_main_v16_apply, val_main_v14_apply, val_main_v15_apply, val_main_cst_1_apply, val_main_cst_2_apply]
  unfold l1dist
  show max (Ideal.ofBits .f32 0x00000000#32 + ∑ k : Fin 64, val_main_v13 (F := Ideal) x0 x1 (idx_main_v14 i k)) (Ideal.ofBits .f32 0x00000000#32) = _
  rw [Ideal.ofBits_zero_f32, zero_add]
  refine congrArg (max · _) (Finset.sum_congr rfl fun k _ => ?_)
  rw [val_main_v13_apply, val_main_v12_apply, val_main_v10_apply, val_main_v11_apply, val_main_v8_apply, val_main_v9_apply,
    idx_rows, idx_cols]
  rfl

end Cert.ReferenceIdeal.RefValue

end
-- ==== Proof.lean ====
/-
  A tiled kernel for the pairwise L1 distance between two families of 2048 points of ℝ⁶⁴ against the plain formula.

  Both programs first centre the inputs by the column means of the first one, μ(d) = (0 + Σ_n x(n, d)) / 2048:
  a = x − μ and b = y − μ, by the same operations in the same order. The reference then forms
  max(0 + Σ_d |a(n, d) − b(m, d)|, 0) for all (n, m) at once; the kernel forms max(Σ_d |a(n, d) − b(m, d)|, 0) tile by
  tile, 128 × 128 entries at each of 16 × 16 grid points, tile (I, J) from rows 128·I … of a and rows 128·J … of b.
  On the extended reals both are one function, `Cert.PairDist.l1dist a b`: the tiles cover the result exactly once, a
  sum over one axis is a finite sum whatever its order, and the zero word is the number 0. No step needs the inputs
  finite, so the precondition is never opened.

  * `Proof/PairDist.lean`  the distance function, and one tile of it read entry by entry;
  * `Proof/Tiles.lean`     what a grid point writes back, the cover, the kernel's whole result;
  * `Proof/Centred.lean`   the arrays the windows are cut from are the centred inputs; the kernel's run;
  * `Proof/RefDist.lean`   the reference's result is the same function of its centred stages.
  Here: the centring terms of the two programs coincide, and the five claims.
-/
import proofs.«171597_j31739808318036_1_alg».proof.Defs
import proofs.«171597_j31739808318036_1_alg».proof.Proof.Gen.Kernel
import proofs.«171597_j31739808318036_1_alg».proof.Proof.Gen.Kernel.Skeleton
import proofs.«171597_j31739808318036_1_alg».proof.Proof.Gen.Kernel.Launch
import proofs.«171597_j31739808318036_1_alg».proof.Proof.Gen.Kernel.Points
import proofs.«171597_j31739808318036_1_alg».proof.Proof.Gen.Kernel.Frame
import proofs.«171597_j31739808318036_1_alg».proof.Proof.Gen.KernelIdeal
import proofs.«171597_j31739808318036_1_alg».proof.Proof.Gen.KernelIdeal.Skeleton
import proofs.«171597_j31739808318036_1_alg».proof.Proof.Gen.KernelIdeal.Launch
import proofs.«171597_j31739808318036_1_alg».proof.Proof.Gen.KernelIdeal.Points
import proofs.«171597_j31739808318036_1_alg».proof.Proof.Gen.KernelIdeal.Frame
import proofs.«171597_j31739808318036_1_alg».proof.Proof.Gen.ReferenceIdeal
import proofs.«171597_j31739808318036_1_alg».proof.Proof.Gen.Pre_finite_inputs
import proofs.«171597_j31739808318036_1_alg».proof.Proof.Gen.KernelIdeal.Value
import proofs.«171597_j31739808318036_1_alg».proof.Proof.Gen.ReferenceIdeal.Run
import proofs.«171597_j31739808318036_1_alg».proof.Proof.Gen.ReferenceIdeal.Read
import proofs.«171597_j31739808318036_1_alg».proof.Proof.Centred
import proofs.«171597_j31739808318036_1_alg».proof.Proof.RefDist
import Idealize.ShloMosaic.Adequacy
import Idealize.ShloMosaic.Init

noncomputable section

namespace Cert.Proof

open Idealize.ShloMosaic Idealize.ShloMosaic.TcCoe Idealize.SL.Sem

/-- The reference centres its first input by the very operations the kernel's program applies before its region. -/
theorem centred_fst_eq (x : FVec Ideal Cert.KernelIdeal.S2048x64 .f32) :
    Cert.ReferenceIdeal.Read.val_main_v5 (F := Ideal) x = Cert.KernelIdeal.Centred.centredFst x := rfl

/-- And its second input likewise, by the first input's column means. -/
theorem centred_snd_eq (x y : FVec Ideal Cert.KernelIdeal.S2048x64 .f32) :
    Cert.ReferenceIdeal.Read.val_main_v7 (F := Ideal) x y = Cert.KernelIdeal.Centred.centredSnd x y := rfl

/-- The word-level kernel runs to its end without a fault and leaves its inputs as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel at the ideal values rewrote none of its operations. -/
theorem preserves : Cert.preserves_Kernel_KernelIdeal := trivial

/-- From inputs that agree, both programs end with the distance array of the centred inputs. -/
theorem algebraic : Cert.algebraic_KernelIdeal_ReferenceIdeal := by
  intro m ρ m' ρ' _ hagree
  refine ⟨_, Cert.KernelIdeal.Centred.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2,
    centred_fst_eq, centred_snd_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
